-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x3072 : Shape := ⟨2, ![1024, 3072]⟩
abbrev S2x3072 : Shape := ⟨2, ![2, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S2x3072 : S_.BroadcastsInDim S2x3072 (![] : Fin 0 → Fin S2x3072.rank)
  reducesTo_S2x3072_S_d0_1 : S2x3072.ReducesTo [0, 1] S_

variable [Facts]

def fn_part1 {F : FTy → Type} [FloatOps F] (main_arg4 : FVec F S2x3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S2x3072 .f32 := Host.absf main_arg4
  let main_cst_6 : FVec F S_ .f32 := constant S_ .f32 0x7F800000#32
  let main_v20 : FVec F S2x3072 .f32 := broadcastInDim S2x3072 ![] bcast_S_S2x3072 main_cst_6
  let main_v21 : IVec S2x3072 1 := cmpf .olt main_v19 main_v20
  let main_c_7 : IVec S_ 1 := constantI S_ 1 1#1
  let main_v22 : IVec S_ 1 := (fun x v => Host.reduce IntOp.andi x v reducesTo_S2x3072_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024x3072 .f32) (main_arg3 : FVec F S1024x3072 .f32) (main_arg4 : FVec F S2x3072 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_v13 main_v16
-- ==== Kernel.lean ====
abbrev S8192x1024 : Shape := ⟨2, ![8192, 1024]⟩
abbrev S1024x3072 : Shape := ⟨2, ![1024, 3072]⟩
abbrev S2x3072 : Shape := ⟨2, ![2, 3072]⟩
abbrev S256x1024 : Shape := ⟨2, ![256, 1024]⟩
abbrev S1x3072 : Shape := ⟨2, ![1, 3072]⟩
abbrev S3072 : Shape := ⟨1, ![3072]⟩
abbrev S256x3072 : Shape := ⟨2, ![256, 3072]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x3072, .f32⟩
  | .hbm, ⟨3, _⟩ => ⟨S1024x3072, .f32⟩
  | .hbm, ⟨4, _⟩ => ⟨S2x3072, .f32⟩
  | .hbm, ⟨5, _⟩ => ⟨S1024x3072, .bf16⟩
  | .hbm, ⟨6, _⟩ => ⟨S1024x3072, .bf16⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x3072, .bf16⟩
  | .local _ .vmem, ⟨6, _⟩ => ⟨S2x3072, .f32⟩
  | .local _ .vmem, ⟨7, _⟩ => ⟨S256x1024, .f32⟩
  | .local _ .vmem, ⟨8, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S2x3072_S1x3072_0_0 : ∀ a, (![0, 0] : Fin 2 → Nat) a + S1x3072.size a ≤ S2x3072.size a
  h_S1x3072 : 0 < S1x3072.numel
  shapeCasts_S1x3072_S3072 : S1x3072.ShapeCasts S3072
  inb_S2x3072_S1x3072_1_0 : ∀ a, (![1, 0] : Fin 2 → Nat) a + S1x3072.size a ≤ S2x3072.size a
  shapeCasts_S3072_S1x3072 : S3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x3072.size a ≤ S2x3072.size a
  hwx0_4 : ∀ i : grid0.Coords, EltTy.bits .f32 = 32 ∨ (Rect.block (s := S2x3072) S2x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x3072 : Shape := ⟨2, ![1024, 3072]⟩
abbrev S2x3072 : Shape := ⟨2, ![2, 3072]⟩
abbrev S1x3072 : Shape := ⟨2, ![1, 3072]⟩
abbrev S3072 : Shape := ⟨1, ![3072]⟩
abbrev S8192x3072 : Shape := ⟨2, ![8192, 3072]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x3072, .f32⟩
  | .hbm, ⟨3, _⟩ => ⟨S1024x3072, .f32⟩
  | .hbm, ⟨4, _⟩ => ⟨S2x3072, .f32⟩
  | .hbm, ⟨5, _⟩ => ⟨S1x3072, .f32⟩
  | .hbm, ⟨6, _⟩ => ⟨S3072, .f32⟩
  | .hbm, ⟨7, _⟩ => ⟨S1x3072, .f32⟩
  | .hbm, ⟨8, _⟩ => ⟨S3072, .f32⟩
  | .hbm, ⟨9, _⟩ => ⟨S8192x3072, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  slices_S2x3072_S1x3072_0_0 : S2x3072.Slices ![0, 0] S1x3072
  shapeCasts_S1x3072_S3072 : S1x3072.ShapeCasts S3072
  slices_S2x3072_S1x3072_1_0 : S2x3072.Slices ![1, 0] S1x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  bcast_S_S8192x1024 : S_.BroadcastsInDim S8192x1024 (![] : Fin 0 → Fin S8192x1024.rank)
  dot_S8192x1024_S1024x3072_S8192x3072_1_0_0_1_n_n_wf : DotDims.WF S8192x1024 S1024x3072 S8192x3072 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf

class Facts : Prop extends Facts₀ where

variable [Facts]
-- ==== Proof.GruCell.lean ====
/-
  One step of a GRU cell with hard-sigmoid gates, as a function on the extended reals.

  For a batch row with input entries `x k` and previous state entries `h k` (k < 1024), weights `K`, `RK`
  (1024 × 3072) and a bias `B` (2 × 3072), put
      a j = (∑ k, x k · K (k, j)) + B (0, j)          (the input projection, j < 3072)
      b j = (∑ k, h k · RK (k, j)) + B (1, j)         (the recurrent projection)
      σ s = min 1 (max 0 (c₁ · s + c₂))               (the hard sigmoid; c₁, c₂ the two float literals)
      z u = σ (a u + b u),  r u = σ (a (u + 1024) + b (u + 1024))
      n u = tanh (a (u + 2048) + r u · b (u + 2048))
  and the new state at unit u < 1024 is  z u · h u + (1 − z u) · n u.
  The whole batch applies this to every row, so a block of rows of the result depends on the same block of rows
  of the inputs only. The literals stay as the binary words both programs print; nothing here evaluates them.
-/
import Idealize.ShloMosaic.PureOps.Ideal
import Idealize.ShloMosaic.Lib.ValueIdx

noncomputable section

namespace Cert.GruCell

open Idealize.ShloMosaic Idealize.ShloMosaic.ValueIdx

/-- The weights' index type (1024 × 3072) and the bias' (2 × 3072). -/
abbrev WIdx : Type := (⟨2, ![1024, 3072]⟩ : Shape).Idx
abbrev BIdx : Type := (⟨2, ![2, 3072]⟩ : Shape).Idx

/-- Column `u + off` of the 3072 projected columns, for a unit `u < 1024` and a gate offset `off ≤ 2048`. -/
abbrev col (off : Nat) (h : off + 1024 ≤ 3072) (u : Fin 1024) : Fin 3072 := ⟨u.val + off, by have := u.isLt; omega⟩

/-- One projected entry: the row `v` against column `j` of the weights `W`, plus row `b` of the bias. -/
def proj (v : Fin 1024 → EReal) (W : WIdx → EReal) (B : BIdx → EReal) (b : Fin 2) (j : Fin 3072) : EReal :=
  (∑ k : Fin 1024, v k * W (ix2 k j)) + B (ix2 b j)

/-- A projected entry depends on the column's number only. -/
theorem proj_congr (v : Fin 1024 → EReal) (W : WIdx → EReal) (B : BIdx → EReal) (b : Fin 2) {j j' : Fin 3072}
    (h : j.val = j'.val) : proj v W B b j = proj v W B b j' := by rw [Fin.ext h]

/-- The hard sigmoid `min 1 (max 0 (c₁ · s + c₂))` over the printed literals. -/
def hardSigmoid (s : EReal) : EReal :=
  min (Ideal.ofBits .f32 0x3F800000#32) (max (Ideal.ofBits .f32 0x00000000#32)
    (Ideal.ofBits .f32 0x3E4CCCCD#32 * s + Ideal.ofBits .f32 0x3F000000#32))

/-- The new state of unit `u` of one batch row. -/
def newState (x h : Fin 1024 → EReal) (K RK : WIdx → EReal) (B : BIdx → EReal) (u : Fin 1024) : EReal :=
  hardSigmoid (proj x K B 0 (col 0 (by omega) u) + proj h RK B 1 (col 0 (by omega) u)) * h u
    + (Ideal.ofBits .f32 0x3F800000#32
        - hardSigmoid (proj x K B 0 (col 0 (by omega) u) + proj h RK B 1 (col 0 (by omega) u)))
      * Ideal.tanh (proj x K B 0 (col 2048 (by omega) u)
          + hardSigmoid (proj x K B 0 (col 1024 (by omega) u) + proj h RK B 1 (col 1024 (by omega) u))
            * proj h RK B 1 (col 2048 (by omega) u))

/-- Row `r` of an `n × 1024` array. -/
abbrev rowOf {n : Nat} (X : (⟨2, ![n, 1024]⟩ : Shape).Idx → EReal) (r : Fin n) : Fin 1024 → EReal := fun k => X (ix2 r k)

/-- The cell over a batch of `n` rows: entry `(r, u)` is the new state of unit `u` of row `r`. -/
def cell {n : Nat} (X H : (⟨2, ![n, 1024]⟩ : Shape).Idx → EReal) (K RK : WIdx → EReal) (B : BIdx → EReal) :
    (⟨2, ![n, 1024]⟩ : Shape).Idx → EReal :=
  fun i => newState (rowOf X (i 0)) (rowOf H (i 0)) K RK B (i 1)

end Cert.GruCell

end
-- ==== Proof.RefCell.lean ====
/-
  The reference program computes the GRU cell of `GruCell.lean`, entry by entry.

  Its two projections are read off as sums over the contracted axis plus a bias row (the bias reaches the projected
  array through a slice of one row, a reshape and two broadcasts, all of which keep the column), its three column
  slices pick the columns `u`, `u + 1024`, `u + 2048`, and its clip is the maximum with 0 followed by the minimum
  with 1: the hard sigmoid. The remaining operations are the cell's own, in the cell's order.
-/
import proofs.«111397_j2044404432950_1_alg».proof.Proof.Gen.ReferenceIdeal.Read
import proofs.«111397_j2044404432950_1_alg».proof.Proof.GruCell

noncomputable section

namespace Cert.GruCell.Ref

open Cert.ReferenceIdeal Cert.ReferenceIdeal.Read Idealize.ShloMosaic Idealize.ShloMosaic.ValueIdx Cert.GruCell

/-- The input projection at `(r, j)`: row `r` of the inputs against column `j` of the kernel, plus bias row 0. -/
theorem inputProj (x0 : (⟨S8192x1024, .f32⟩ : BufTy).Contents (Elt Ideal)) (x2 : (⟨S1024x3072, .f32⟩ : BufTy).Contents (Elt Ideal)) (x4 : (⟨S2x3072, .f32⟩ : BufTy).Contents (Elt Ideal)) (j : S8192x3072.Idx) :
    val_main_v7 (F := Ideal) x0 x2 x4 j = proj (rowOf x0 (j 0)) x2 x4 0 (j 1) := by
  rw [val_main_v7_apply, val_main_v4_apply, val_main_v6_apply, val_main_v5_apply, val_main_v1_apply, val_main_v0_apply]
  unfold proj
  refine congrArg₂ (· + ·) (Finset.sum_congr rfl fun k _ => congrArg₂ (· * ·) (congrArg x0 ?_) (congrArg x2 ?_)) (congrArg x4 ?_)
  · exact funext fun a => Fin.ext (by match a with | ⟨0, _⟩ => rfl | ⟨1, _⟩ => rfl)
  · exact funext fun a => Fin.ext (by match a with | ⟨0, _⟩ => rfl | ⟨1, _⟩ => rfl)
  · refine funext fun a => Fin.ext ?_
    have hj : (j 1).val < 3072 := (j 1).isLt
    match a with
    | ⟨0, _⟩ => rfl
    | ⟨1, _⟩ => show (j 1).val % 3072 = (j 1).val; omega

/-- The recurrent projection at `(r, j)`: row `r` of the state against column `j` of the recurrent kernel, plus bias row 1. -/
theorem recurrentProj (x1 : (⟨S8192x1024, .f32⟩ : BufTy).Contents (Elt Ideal)) (x3 : (⟨S1024x3072, .f32⟩ : BufTy).Contents (Elt Ideal)) (x4 : (⟨S2x3072, .f32⟩ : BufTy).Contents (Elt Ideal)) (j : S8192x3072.Idx) :
    val_main_v14 (F := Ideal) x1 x3 x4 j = proj (rowOf x1 (j 0)) x3 x4 1 (j 1) := by
  rw [val_main_v14_apply, val_main_v11_apply, val_main_v13_apply, val_main_v12_apply, val_main_v3_apply, val_main_v2_apply]
  unfold proj
  refine congrArg₂ (· + ·) (Finset.sum_congr rfl fun k _ => congrArg₂ (· * ·) (congrArg x1 ?_) (congrArg x3 ?_)) (congrArg x4 ?_)
  · exact funext fun a => Fin.ext (by match a with | ⟨0, _⟩ => rfl | ⟨1, _⟩ => rfl)
  · exact funext fun a => Fin.ext (by match a with | ⟨0, _⟩ => rfl | ⟨1, _⟩ => rfl)
  · refine funext fun a => Fin.ext ?_
    have hj : (j 1).val < 3072 := (j 1).isLt
    match a with
    | ⟨0, _⟩ => rfl
    | ⟨1, _⟩ => show (j 1).val % 3072 = (j 1).val; omega

/-- The update gate's columns of the input projection. -/
theorem inputZ (x0 : (⟨S8192x1024, .f32⟩ : BufTy).Contents (Elt Ideal)) (x2 : (⟨S1024x3072, .f32⟩ : BufTy).Contents (Elt Ideal)) (x4 : (⟨S2x3072, .f32⟩ : BufTy).Contents (Elt Ideal)) (i : S8192x1024.Idx) :
    val_main_v8 (F := Ideal) x0 x2 x4 i = proj (rowOf x0 (i 0)) x2 x4 0 (col 0 (by omega) (i 1)) := by
  rw [val_main_v8_apply, inputProj]
  exact proj_congr _ _ _ _ (by show (i 1).val = (i 1).val + 0; omega)

/-- The reset gate's columns of the input projection. -/
theorem inputR (x0 : (⟨S8192x1024, .f32⟩ : BufTy).Contents (Elt Ideal)) (x2 : (⟨S1024x3072, .f32⟩ : BufTy).Contents (Elt Ideal)) (x4 : (⟨S2x3072, .f32⟩ : BufTy).Contents (Elt Ideal)) (i : S8192x1024.Idx) :
    val_main_v9 (F := Ideal) x0 x2 x4 i = proj (rowOf x0 (i 0)) x2 x4 0 (col 1024 (by omega) (i 1)) := by
  rw [val_main_v9_apply, inputProj]
  exact proj_congr _ _ _ _ (by show 1024 + (i 1).val = (i 1).val + 1024; omega)

/-- The candidate's columns of the input projection. -/
theorem inputN (x0 : (⟨S8192x1024, .f32⟩ : BufTy).Contents (Elt Ideal)) (x2 : (⟨S1024x3072, .f32⟩ : BufTy).Contents (Elt Ideal)) (x4 : (⟨S2x3072, .f32⟩ : BufTy).Contents (Elt Ideal)) (i : S8192x1024.Idx) :
    val_main_v10 (F := Ideal) x0 x2 x4 i = proj (rowOf x0 (i 0)) x2 x4 0 (col 2048 (by omega) (i 1)) := by
  rw [val_main_v10_apply, inputProj]
  exact proj_congr _ _ _ _ (by show 2048 + (i 1).val = (i 1).val + 2048; omega)

/-- The update gate's columns of the recurrent projection. -/
theorem recurrentZ (x1 : (⟨S8192x1024, .f32⟩ : BufTy).Contents (Elt Ideal)) (x3 : (⟨S1024x3072, .f32⟩ : BufTy).Contents (Elt Ideal)) (x4 : (⟨S2x3072, .f32⟩ : BufTy).Contents (Elt Ideal)) (i : S8192x1024.Idx) :
    val_main_v15 (F := Ideal) x1 x3 x4 i = proj (rowOf x1 (i 0)) x3 x4 1 (col 0 (by omega) (i 1)) := by
  rw [val_main_v15_apply, recurrentProj]
  exact proj_congr _ _ _ _ (by show (i 1).val = (i 1).val + 0; omega)

/-- The reset gate's columns of the recurrent projection. -/
theorem recurrentR (x1 : (⟨S8192x1024, .f32⟩ : BufTy).Contents (Elt Ideal)) (x3 : (⟨S1024x3072, .f32⟩ : BufTy).Contents (Elt Ideal)) (x4 : (⟨S2x3072, .f32⟩ : BufTy).Contents (Elt Ideal)) (i : S8192x1024.Idx) :
    val_main_v16 (F := Ideal) x1 x3 x4 i = proj (rowOf x1 (i 0)) x3 x4 1 (col 1024 (by omega) (i 1)) := by
  rw [val_main_v16_apply, recurrentProj]
  exact proj_congr _ _ _ _ (by show 1024 + (i 1).val = (i 1).val + 1024; omega)

/-- The candidate's columns of the recurrent projection. -/
theorem recurrentN (x1 : (⟨S8192x1024, .f32⟩ : BufTy).Contents (Elt Ideal)) (x3 : (⟨S1024x3072, .f32⟩ : BufTy).Contents (Elt Ideal)) (x4 : (⟨S2x3072, .f32⟩ : BufTy).Contents (Elt Ideal)) (i : S8192x1024.Idx) :
    val_main_v17 (F := Ideal) x1 x3 x4 i = proj (rowOf x1 (i 0)) x3 x4 1 (col 2048 (by omega) (i 1)) := by
  rw [val_main_v17_apply, recurrentProj]
  exact proj_congr _ _ _ _ (by show 2048 + (i 1).val = (i 1).val + 2048; omega)

/-- The update gate: the clip of `c₁ · (a u + b u) + c₂` to `[0, 1]`. -/
theorem updateGate (x0 x1 : (⟨S8192x1024, .f32⟩ : BufTy).Contents (Elt Ideal)) (x2 x3 : (⟨S1024x3072, .f32⟩ : BufTy).Contents (Elt Ideal)) (x4 : (⟨S2x3072, .f32⟩ : BufTy).Contents (Elt Ideal)) (i : S8192x1024.Idx) :
    val_main_v23 (F := Ideal) x0 x1 x2 x3 x4 i
      = hardSigmoid (proj (rowOf x0 (i 0)) x2 x4 0 (col 0 (by omega) (i 1)) + proj (rowOf x1 (i 0)) x3 x4 1 (col 0 (by omega) (i 1))) := by
  rw [val_main_v23_apply, val_main_call0_v4_apply, val_main_call0_v3_apply, val_main_cst_2_apply, val_main_call0_v2_apply,
    val_main_call0_v1_apply, val_main_call0_v0_apply, val_main_cst_1_apply, val_main_v22_apply, val_main_v20_apply,
    val_main_v19_apply, val_main_cst_apply, val_main_v18_apply, inputZ, recurrentZ, val_main_v21_apply, val_main_cst_0_apply]
  rfl

/-- The reset gate: the clip of `c₁ · (a (u + 1024) + b (u + 1024)) + c₂` to `[0, 1]`. -/
theorem resetGate (x0 x1 : (⟨S8192x1024, .f32⟩ : BufTy).Contents (Elt Ideal)) (x2 x3 : (⟨S1024x3072, .f32⟩ : BufTy).Contents (Elt Ideal)) (x4 : (⟨S2x3072, .f32⟩ : BufTy).Contents (Elt Ideal)) (i : S8192x1024.Idx) :
    val_main_v29 (F := Ideal) x0 x1 x2 x3 x4 i
      = hardSigmoid (proj (rowOf x0 (i 0)) x2 x4 0 (col 1024 (by omega) (i 1)) + proj (rowOf x1 (i 0)) x3 x4 1 (col 1024 (by omega) (i 1))) := by
  rw [val_main_v29_apply, val_main_call1_v4_apply, val_main_call1_v3_apply, val_main_cst_6_apply, val_main_call1_v2_apply,
    val_main_call1_v1_apply, val_main_call1_v0_apply, val_main_cst_5_apply, val_main_v28_apply, val_main_v26_apply,
    val_main_v25_apply, val_main_cst_3_apply, val_main_v24_apply, inputR, recurrentR, val_main_v27_apply, val_main_cst_4_apply]
  rfl

/-- THE REFERENCE'S RESULT is the cell of its five arguments. -/
theorem result_eq (x0 x1 : (⟨S8192x1024, .f32⟩ : BufTy).Contents (Elt Ideal)) (x2 x3 : (⟨S1024x3072, .f32⟩ : BufTy).Contents (Elt Ideal)) (x4 : (⟨S2x3072, .f32⟩ : BufTy).Contents (Elt Ideal)) :
    val_main_v37 (F := Ideal) x0 x1 x2 x3 x4 = cell x0 x1 x2 x3 x4 := by
  funext i
  rw [val_main_v37_apply, val_main_v33_apply, val_main_v36_apply, val_main_v35_apply, val_main_v34_apply, val_main_cst_7_apply,
    val_main_v32_apply, val_main_v31_apply, val_main_v30_apply, updateGate, resetGate, inputN, recurrentN,
    show x1 i = rowOf x1 (i 0) (i 1) from congrArg x1 (eq_ix2 i)]
  rfl

end Cert.GruCell.Ref

end
-- ==== Proof.BlockCell.lean ====
/-
  What one grid point's body leaves in its output block is the GRU cell of `GruCell.lean` on the block's rows.

  The body multiplies the block of inputs (and the block of previous states) with the whole weight matrix into a
  zero accumulator — at the ideal instance the sum over the contracted axis, the change of float format being the
  identity —, adds a bias row broadcast down the rows, slices the three groups of 1024 columns, and combines them
  pointwise. Read at an entry `(p, u)` of the block this is the new state of unit `u` for the block's row `p`.
-/
import proofs.«111397_j2044404432950_1_alg».proof.Proof.Gen.KernelIdeal.Value
import proofs.«111397_j2044404432950_1_alg».proof.Proof.GruCell
import Idealize.ShloMosaic.Lib.ValueIdx
import Idealize.ShloMosaic.Lib.Pipeline.Value
import Idealize.ShloMosaic.PureOps.Ideal.Laws

noncomputable section

namespace Cert.GruCell.Block

open Cert.KernelIdeal Cert.KernelIdeal.Gen Idealize.ShloMosaic Idealize.ShloMosaic.ValueIdx Cert.GruCell

/-! ## The contraction's index maps, axis by axis -/

theorem lhs_dot_S256x1024_S1024x3072_S256x3072_1_0_0_1_n_n_0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_dot_S256x1024_S1024x3072_S256x3072_1_0_0_1_n_n_1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_dot_S256x1024_S1024x3072_S256x3072_1_0_0_1_n_n_0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_dot_S256x1024_S1024x3072_S256x3072_1_0_0_1_n_n_1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- A block's product with the weights, read at `(p, q)`: the sum over the contracted axis. -/
theorem matmul_at (A : FVec Ideal S256x1024 .bf16) (W : FVec Ideal S1024x3072 .bf16) (p : Fin 256) (q : Fin 3072) :
    matmul dot_S256x1024_S1024x3072_S256x3072_1_0_0_1_n_n none A W (constant S256x3072 .f32 0x00000000#32) (ix2 p q) = ∑ k : Fin 1024, A (ix2 p k) * W (ix2 k q) := by
  refine (Ideal.matmul_constant_zero_apply dot_S256x1024_S1024x3072_S256x3072_1_0_0_1_n_n none A W (ix2 p q)).trans ?_
  rw [← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 p q) ((ValueIdx.contrEquiv1 dot_S256x1024_S1024x3072_S256x3072_1_0_0_1_n_n 1024 rfl rfl).symm k) = ix2 p k := funext fun a => Fin.ext (by
    match a with
    | ⟨0, _⟩ => exact lhs_dot_S256x1024_S1024x3072_S256x3072_1_0_0_1_n_n_0 _ _
    | ⟨1, _⟩ => exact (lhs_dot_S256x1024_S1024x3072_S256x3072_1_0_0_1_n_n_1 _ _).trans hk)
  have er : dot_S256x1024_S1024x3072_S256x3072_1_0_0_1_n_n.rhsIdx (ix2 p q) ((ValueIdx.contrEquiv1 dot_S256x1024_S1024x3072_S256x3072_1_0_0_1_n_n 1024 rfl rfl).symm k) = ix2 k q := funext fun a => Fin.ext (by
    match a with
    | ⟨0, _⟩ => exact (rhs_dot_S256x1024_S1024x3072_S256x3072_1_0_0_1_n_n_0 _ _).trans hk
    | ⟨1, _⟩ => exact rhs_dot_S256x1024_S1024x3072_S256x3072_1_0_0_1_n_n_1 _ _)
  rw [el, er]

/-- The first projection's payload at `(p, q)`: row `p` of the block against column `q`, plus the loaded bias row. -/
theorem pay_proj (P0 : Vec Ideal S256x1024 .f32) (P1 : Vec Ideal S1024x3072 .bf16) (P2 : Vec Ideal S1x3072 .f32) (p : Fin 256) (q : Fin 3072) :
    k0_pay2 P0 P1 P2 (ix2 p q) = (∑ k : Fin 1024, P0 (ix2 p k) * P1 (ix2 k q)) + P2 (ix2 0 q) := by
  unfold k0_pay2
  refine congrArg₂ (· + ·) ?_ ?_
  · refine (matmul_at _ _ p q).trans ?_
    rw [shapeCast_self]
    rfl
  · refine (broadcastTo_apply _ broadcasts_S1x3072_S256x3072 (ix2 p q) (ix2 0 q) (fun a => by
      match a with
      | ⟨0, _⟩ => rfl
      | ⟨1, _⟩ => rfl)).trans ?_
    rw [shapeCast_shapeCast]

/-- The second projection's payload at `(p, q)`, likewise. -/
theorem pay_proj' (P3 : Vec Ideal S256x1024 .f32) (P4 : Vec Ideal S1024x3072 .bf16) (P5 : Vec Ideal S1x3072 .f32) (p : Fin 256) (q : Fin 3072) :
    k0_pay3 P3 P4 P5 (ix2 p q) = (∑ k : Fin 1024, P3 (ix2 p k) * P4 (ix2 k q)) + P5 (ix2 0 q) := by
  unfold k0_pay3
  refine congrArg₂ (· + ·) ?_ ?_
  · refine (matmul_at _ _ p q).trans ?_
    rw [shapeCast_self]
    rfl
  · refine (broadcastTo_apply _ broadcasts_S1x3072_S256x3072 (ix2 p q) (ix2 0 q) (fun a => by
      match a with
      | ⟨0, _⟩ => rfl
      | ⟨1, _⟩ => rfl)).trans ?_
    rw [shapeCast_shapeCast]

theorem origin2 : (![0, 0] : Fin 2 → Nat) = fun _ => 0 := funext fun a => by fin_cases a <;> rfl

/-- The input projection of a block of rows: the body loads the whole block of inputs, the whole weights and bias row 0. -/
theorem blockProj_x (x0 : Vec Ideal S256x1024 .f32) (x2 : Vec Ideal S1024x3072 .bf16) (x4 : Vec Ideal S2x3072 .f32) (p : Fin 256) (q : Fin 3072) :
    k0_pay2 (View.ld x0 r0_0) (View.ld x2 r0_1) (View.ld x4 r0_2) (ix2 p q) = proj (fun k => x0 (ix2 p k)) x2 x4 0 q := by
  rw [pay_proj, View.ld_unit_zero (S := S256x1024) origin2, View.ld_unit_zero (S := S1024x3072) origin2]
  unfold proj
  refine congrArg (_ + ·) (congrArg x4 (funext fun a => Fin.ext ?_))
  match a with
  | ⟨0, _⟩ => rfl
  | ⟨1, _⟩ => show 0 + 1 * q.val = q.val; omega

/-- The recurrent projection of a block of rows: the block of states, the recurrent weights and bias row 1. -/
theorem blockProj_h (x1 : Vec Ideal S256x1024 .f32) (x3 : Vec Ideal S1024x3072 .bf16) (x4 : Vec Ideal S2x3072 .f32) (p : Fin 256) (q : Fin 3072) :
    k0_pay3 (View.ld x1 r0_0) (View.ld x3 r0_1) (View.ld x4 r0_3) (ix2 p q) = proj (fun k => x1 (ix2 p k)) x3 x4 1 q := by
  rw [pay_proj', View.ld_unit_zero (S := S256x1024) origin2, View.ld_unit_zero (S := S1024x3072) origin2]
  unfold proj
  refine congrArg (_ + ·) (congrArg x4 (funext fun a => Fin.ext ?_))
  match a with
  | ⟨0, _⟩ => rfl
  | ⟨1, _⟩ => show 0 + 1 * q.val = q.val; omega

/-- WHAT THE BODY LEAVES IN THE OUTPUT BLOCK at `(p, u)`: the new state of unit `u` of the block's row `p`. -/
theorem block_apply (x0 x1 : Vec Ideal S256x1024 .f32) (x2 x3 : Vec Ideal S1024x3072 .bf16) (x4 : Vec Ideal S2x3072 .f32) (p : Fin 256) (u : Fin 1024) :
    out0_5 x0 x1 x2 x3 x4 (ix2 p u) = newState (fun k => x0 (ix2 p k)) (fun k => x1 (ix2 p k)) x2 x3 x4 u := by
  unfold out0_5
  refine (Value.canon5_eq _ _ _ _ _ _ (ix2 p u)).trans ?_
  have e0 : Value.ix5_0 (ix2 p u) = ix2 p (col 0 (by omega) u) :=
    funext fun a => Fin.ext (by match a with | ⟨0, _⟩ => rfl | ⟨1, _⟩ => rfl)
  have e1 : Value.ix5_1 (ix2 p u) = ix2 p (col 0 (by omega) u) :=
    funext fun a => Fin.ext (by match a with | ⟨0, _⟩ => rfl | ⟨1, _⟩ => rfl)
  have e2 : Value.ix5_2 (ix2 p u) = ix2 p u :=
    funext fun a => Fin.ext (by match a with | ⟨0, _⟩ => rfl | ⟨1, _⟩ => rfl)
  have e3 : Value.ix5_3 (ix2 p u) = ix2 p (col 0 (by omega) u) :=
    funext fun a => Fin.ext (by match a with | ⟨0, _⟩ => rfl | ⟨1, _⟩ => rfl)
  have e4 : Value.ix5_4 (ix2 p u) = ix2 p (col 0 (by omega) u) :=
    funext fun a => Fin.ext (by match a with | ⟨0, _⟩ => rfl | ⟨1, _⟩ => rfl)
  have e5 : Value.ix5_5 (ix2 p u) = ix2 p (col 2048 (by omega) u) :=
    funext fun a => Fin.ext (by match a with | ⟨0, _⟩ => rfl | ⟨1, _⟩ => rfl)
  have e6 : Value.ix5_6 (ix2 p u) = ix2 p (col 1024 (by omega) u) :=
    funext fun a => Fin.ext (by match a with | ⟨0, _⟩ => rfl | ⟨1, _⟩ => rfl)
  have e7 : Value.ix5_7 (ix2 p u) = ix2 p (col 1024 (by omega) u) :=
    funext fun a => Fin.ext (by match a with | ⟨0, _⟩ => rfl | ⟨1, _⟩ => rfl)
  have e8 : Value.ix5_8 (ix2 p u) = ix2 p u :=
    funext fun a => Fin.ext (by match a with | ⟨0, _⟩ => rfl | ⟨1, _⟩ => rfl)
  have e9 : Value.ix5_9 (ix2 p u) = ix2 p (col 2048 (by omega) u) :=
    funext fun a => Fin.ext (by match a with | ⟨0, _⟩ => rfl | ⟨1, _⟩ => rfl)
  dsimp only [Value.E5]
  rw [e0, e1, e2, e3, e4, e5, e6, e7, e8, e9]
  simp only [blockProj_x, blockProj_h]
  rw [View.ld_unit_zero (S := S256x1024) origin2]
  rfl

end Cert.GruCell.Block

end
-- ==== Proof.WholeCell.lean ====
/-
  The kernel's output array is the GRU cell of the whole argument arrays.

  Grid point `t` works on rows `256·t … 256·t + 255`: its blocks of the inputs and of the previous states are those
  rows, its blocks of the two weight matrices and of the bias are the whole arrays (the weights as the region finds
  them are copies in a shorter float format, which at the ideal instance are the matrices themselves), and what it
  writes back is the cell on those rows (`BlockCell.lean`). A row of the cell depends on the same row of the inputs
  only, so that is block `t` of the cell of the whole arrays; row `r` lies in the block of point `r / 256`, so the 32
  blocks cover the output, and the array ends holding the cell everywhere.
-/
import proofs.«111397_j2044404432950_1_alg».proof.Proof.Gen.KernelIdeal.Value
import proofs.«111397_j2044404432950_1_alg».proof.Proof.BlockCell
import Idealize.ShloMosaic.Lib.StableHlo.Run

noncomputable section

namespace Cert.GruCell.Whole

open Cert.KernelIdeal Cert.KernelIdeal.Gen Idealize.ShloMosaic Idealize.ShloMosaic.TcCoe Idealize.SL.Sem Idealize.ShloMosaic.ValueIdx Cert.GruCell
open Idealize.ShloMosaic.Pipeline (Dat)

variable (m : (ℓ : Loc nD τ sig) → Buf (Elt Ideal) ℓ) (ρ : Dev nD → PrngReg)

/-- The weights as the region finds them: the host's narrowed copy, which at the ideal instance is the matrix itself. -/
theorem weights_eq (c : Dev nD) : (V m c main_v0 : S1024x3072.Idx → EReal) = m ((c : Thread nD τ).loc main_arg2) := by
  dsimp only [Gen.V, Gen.hostOps0]; after_results; rfl

/-- The recurrent weights likewise. -/
theorem recurrentWeights_eq (c : Dev nD) : (V m c main_v1 : S1024x3072.Idx → EReal) = m ((c : Thread nD τ).loc main_arg3) := by
  dsimp only [Gen.V, Gen.hostOps0]; after_results; rfl

/-- The index maps over the 32 grid points: the row blocks move with the point, the weights and the bias stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The new state of a unit is a function of the row's entries, the weights, the bias and the unit. -/
theorem newState_congr {x x' h h' : Fin 1024 → EReal} {K K' RK RK' : WIdx → EReal} {B B' : BIdx → EReal} {u u' : Fin 1024}
    (hx : x = x') (hh : h = h') (hK : K = K') (hRK : RK = RK') (hB : B = B') (hu : u = u') :
    newState x h K RK B u = newState x' h' K' RK' B' u' := by
  subst hx hh hK hRK hB hu; rfl

/-- WHAT POINT `t` WRITES BACK is block `t` of the cell of the argument arrays. -/
theorem flushed_eq (c : Dev nD) (t : Fin cfg0.N) :
    (dats m 0 c).flushed 5 t = ((cfg0.win 5).blk t).view.read (Elt Ideal) (cell (m ((c : Thread nD τ).loc main_arg0)) (m ((c : Thread nD τ).loc main_arg1)) (m ((c : Thread nD τ).loc main_arg2)) (m ((c : Thread nD τ).loc main_arg3)) (m ((c : Thread nD τ).loc main_arg4)) : S8192x1024.Idx → EReal) := by
  rw [Value.flushed5]
  obtain ⟨e00, e01, e10, e11, e20, e21, e30, e31, e40, e41, e50, e51⟩ := idx_facts t
  funext j
  obtain ⟨p, u, rfl⟩ : ∃ (p : Fin 256) (u : Fin 1024), j = ix2 p u := ⟨j 0, j 1, eq_ix2 j⟩
  show out0_5 (iblk m c 0 t) (iblk m c 1 t) (iblk m c 2 t) (iblk m c 3 t) (iblk m c 4 t) (ix2 p u)
    = (cell (m ((c : Thread nD τ).loc main_arg0)) (m ((c : Thread nD τ).loc main_arg1)) (m ((c : Thread nD τ).loc main_arg2)) (m ((c : Thread nD τ).loc main_arg3)) (m ((c : Thread nD τ).loc main_arg4)) : S8192x1024.Idx → EReal) (((cfg0.win 5).blk t).view.emb (ix2 p u))
  refine (Block.block_apply (iblk m c 0 t) (iblk m c 1 t) (iblk m c 2 t) (iblk m c 3 t) (iblk m c 4 t) p u).trans ?_
  unfold cell
  refine newState_congr ?_ ?_ ?_ ?_ ?_ ?_
  · funext k
    show V m c main_arg0 (((cfg0.win 0).blk t).view.emb (ix2 p k)) = (m ((c : Thread nD τ).loc main_arg0)) (ix2 ((((cfg0.win 5).blk t).view.emb (ix2 p u)) 0) k)
    rw [V_main_arg0]
    refine congrArg _ (funext fun a => Fin.ext ?_)
    match a with
    | ⟨0, _⟩ => show win0_0.index t (0 : Fin 2) * 256 + 1 * p.val = win0_5.index t (0 : Fin 2) * 256 + 1 * p.val; omega
    | ⟨1, _⟩ => show win0_0.index t (1 : Fin 2) * 1024 + 1 * k.val = k.val; omega
  · funext k
    show V m c main_arg1 (((cfg0.win 1).blk t).view.emb (ix2 p k)) = (m ((c : Thread nD τ).loc main_arg1)) (ix2 ((((cfg0.win 5).blk t).view.emb (ix2 p u)) 0) k)
    rw [V_main_arg1]
    refine congrArg _ (funext fun a => Fin.ext ?_)
    match a with
    | ⟨0, _⟩ => show win0_1.index t (0 : Fin 2) * 256 + 1 * p.val = win0_5.index t (0 : Fin 2) * 256 + 1 * p.val; omega
    | ⟨1, _⟩ => show win0_1.index t (1 : Fin 2) * 1024 + 1 * k.val = k.val; omega
  · funext z
    show V m c main_v0 (((cfg0.win 2).blk t).view.emb z) = (m ((c : Thread nD τ).loc main_arg2)) z
    rw [weights_eq]
    refine congrArg _ (funext fun a => Fin.ext ?_)
    match a with
    | ⟨0, _⟩ => show win0_2.index t (0 : Fin 2) * 1024 + 1 * (z 0).val = (z 0).val; omega
    | ⟨1, _⟩ => show win0_2.index t (1 : Fin 2) * 3072 + 1 * (z 1).val = (z 1).val; omega
  · funext z
    show V m c main_v1 (((cfg0.win 3).blk t).view.emb z) = (m ((c : Thread nD τ).loc main_arg3)) z
    rw [recurrentWeights_eq]
    refine congrArg _ (funext fun a => Fin.ext ?_)
    match a with
    | ⟨0, _⟩ => show win0_3.index t (0 : Fin 2) * 1024 + 1 * (z 0).val = (z 0).val; omega
    | ⟨1, _⟩ => show win0_3.index t (1 : Fin 2) * 3072 + 1 * (z 1).val = (z 1).val; omega
  · funext z
    show V m c main_arg4 (((cfg0.win 4).blk t).view.emb z) = (m ((c : Thread nD τ).loc main_arg4)) z
    rw [V_main_arg4]
    refine congrArg _ (funext fun a => Fin.ext ?_)
    match a with
    | ⟨0, _⟩ => show win0_4.index t (0 : Fin 2) * 2 + 1 * (z 0).val = (z 0).val; omega
    | ⟨1, _⟩ => show win0_4.index t (1 : Fin 2) * 3072 + 1 * (z 1).val = (z 1).val; omega
  · refine Fin.ext ?_
    show u.val = win0_5.index t (1 : Fin 2) * 1024 + 1 * u.val
    omega

/-- An index of the output is in point `t`'s block iff each coordinate is in the block's range on its axis. -/
theorem mem_blk (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v2).slice (win0_5.rect t)).set ↔ _
  rw [View.set_slice_whole, Rect.mem_set_unit]
  exact Iff.rfl

/-- Row `r` is in the block of point `r / 256`: the blocks cover the output. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 256 < cfg0.N := by rw [show cfg0.N = 32 from N_0]; omega
  obtain ⟨-, -, -, -, -, -, -, -, -, -, e50, e51⟩ := idx_facts ⟨(i 0).val / 256, hN⟩
  refine ⟨⟨(i 0).val / 256, hN⟩, flush0_5 _, ?_⟩
  rw [mem_blk]
  intro a
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    rw [e50]; show (i 0).val / 256 * 256 ≤ (i 0).val ∧ (i 0).val < (i 0).val / 256 * 256 + 256; omega
  | ⟨1, _⟩ =>
    show win0_5.index ⟨(i 0).val / 256, hN⟩ (1 : Fin 2) * 1024 ≤ (i 1).val ∧ (i 1).val < win0_5.index ⟨(i 0).val / 256, hN⟩ (1 : Fin 2) * 1024 + 1024
    rw [e51]; omega

/-- THE OUTPUT ARRAY after the run is the cell of the argument arrays. -/
theorem final (c : Dev nD) : (dats m 0 c).arrAt 5 cfg0.N = (cell (m ((c : Thread nD τ).loc main_arg0)) (m ((c : Thread nD τ).loc main_arg1)) (m ((c : Thread nD τ).loc main_arg2)) (m ((c : Thread nD τ).loc main_arg3)) (m ((c : Thread nD τ).loc main_arg4)) : S8192x1024.Idx → EReal) :=
  (dats m 0 c).arrAt_eq_of_cover 5 _ (fun t _ => flushed_eq m c t) cover

/-- The kernel's run with its result named: the cell of the arguments, which it leaves unchanged. -/
theorem run : θ_run defs (onTc (τ := τ) (main (F := Ideal))) ⟨m, fun _ => 0, ρ⟩ fun r => ∀ c : Dev nD,
      r.2.mem ((c : Thread nD τ).loc main_v2) = (cell (m ((c : Thread nD τ).loc main_arg0)) (m ((c : Thread nD τ).loc main_arg1)) (m ((c : Thread nD τ).loc main_arg2)) (m ((c : Thread nD τ).loc main_arg3)) (m ((c : Thread nD τ).loc main_arg4)) : S8192x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.GruCell.Whole

end
-- ==== Proof.lean ====
/-
  The GRU cell kernel against its jnp reference, over the extended reals.

  Both programs compute, for every batch row, the same cell (`Proof/GruCell.lean`): two projections (a product with a
  weight matrix plus a bias row), hard-sigmoid update and reset gates, a tanh candidate, and the blend
  `z · h + (1 − z) · n` — the same operations in the same order over the same float literals. The kernel works on
  blocks of 256 rows with the whole weights resident, and narrows the weights and the activations to a shorter float
  format before its products; at the ideal instance a change of format is the identity, a product into a zero
  accumulator is the plain sum over the contracted axis, and a row of the result depends on the same row of the
  inputs only, so the blocks are the restrictions of one whole-array function and cover the output. No algebraic law is
  needed beyond reading both sides as that function, and none of it uses that the inputs are finite.

  `Proof/RefCell.lean` reads the reference's run as the cell; `Proof/BlockCell.lean` reads what one grid point leaves
  in its output block; `Proof/WholeCell.lean` puts the blocks together into the output array.
-/
import proofs.«111397_j2044404432950_1_alg».proof.Defs
import proofs.«111397_j2044404432950_1_alg».proof.Proof.Gen.Kernel
import proofs.«111397_j2044404432950_1_alg».proof.Proof.Gen.Kernel.Skeleton
import proofs.«111397_j2044404432950_1_alg».proof.Proof.Gen.Kernel.Launch
import proofs.«111397_j2044404432950_1_alg».proof.Proof.Gen.Kernel.Points
import proofs.«111397_j2044404432950_1_alg».proof.Proof.Gen.Kernel.Frame
import proofs.«111397_j2044404432950_1_alg».proof.Proof.Gen.KernelIdeal
import proofs.«111397_j2044404432950_1_alg».proof.Proof.Gen.KernelIdeal.Skeleton
import proofs.«111397_j2044404432950_1_alg».proof.Proof.Gen.KernelIdeal.Launch
import proofs.«111397_j2044404432950_1_alg».proof.Proof.Gen.KernelIdeal.Points
import proofs.«111397_j2044404432950_1_alg».proof.Proof.Gen.KernelIdeal.Frame
import proofs.«111397_j2044404432950_1_alg».proof.Proof.Gen.ReferenceIdeal
import proofs.«111397_j2044404432950_1_alg».proof.Proof.Gen.Pre_finite_inputs
import proofs.«111397_j2044404432950_1_alg».proof.Proof.Gen.KernelIdeal.Value
import proofs.«111397_j2044404432950_1_alg».proof.Proof.Gen.ReferenceIdeal.Run
import proofs.«111397_j2044404432950_1_alg».proof.Proof.Gen.ReferenceIdeal.Read
import proofs.«111397_j2044404432950_1_alg».proof.Proof.GruCell
import proofs.«111397_j2044404432950_1_alg».proof.Proof.RefCell
import proofs.«111397_j2044404432950_1_alg».proof.Proof.BlockCell
import proofs.«111397_j2044404432950_1_alg».proof.Proof.WholeCell
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the cell of the (agreeing) arguments in their result arrays. -/
theorem algebraic : Cert.algebraic_KernelIdeal_ReferenceIdeal := by
  intro m ρ m' ρ' _ hagree
  refine ⟨_, Cert.GruCell.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.GruCell.Ref.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
